-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000x2 : Shape := ⟨2, ![800000, 2]⟩
abbrev S800000 : Shape := ⟨1, ![800000]⟩
abbrev S512x256 : Shape := ⟨2, ![512, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S50000x512 .f32) (main_arg1 : IVec S800000x2 32) (main_arg2 : FVec F S800000 .f32) (main_arg3 : FVec F S512x256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S50000x512 : Shape := ⟨2, ![50000, 512]⟩
abbrev S800000x2 : Shape := ⟨2, ![800000, 2]⟩
abbrev S800000 : Shape := ⟨1, ![800000]⟩
abbrev S512x256 : Shape := ⟨2, ![512, 256]⟩
abbrev S50000x256 : Shape := ⟨2, ![50000, 256]⟩
abbrev S4096x512 : Shape := ⟨2, ![4096, 512]⟩
abbrev S4096x256 : Shape := ⟨2, ![4096, 256]⟩
abbrev S800000x1 : Shape := ⟨2, ![800000, 1]⟩
abbrev S_ : Shape := ⟨0, ![]⟩
abbrev S800000x256 : Shape := ⟨2, ![800000, 256]⟩

abbrev nBuf : Space → Nat
  | .hbm => 25
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S800000x2, .i32⟩
  | .hbm, ⟨2, _⟩ => ⟨S800000, .f32⟩
  | .hbm, ⟨3, _⟩ => ⟨S512x256, .f32⟩
  | .hbm, ⟨4, _⟩ => ⟨S50000x256, .f32⟩
  | .hbm, ⟨5, _⟩ => ⟨S800000x1, .i32⟩
  | .hbm, ⟨6, _⟩ => ⟨S800000, .i32⟩
  | .hbm, ⟨7, _⟩ => ⟨S800000x1, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .local _ .vmem, ⟨0, _⟩ => ⟨S4096x512, .f32⟩
  | .local _ .vmem, ⟨1, _⟩ => ⟨S4096x512, .f32⟩
  | .local _ .vmem, ⟨2, _⟩ => ⟨S512x256, .f32⟩
  | .local _ .vmem, ⟨3, _⟩ => ⟨S4096x256, .f32⟩
  | .local _ .vmem, ⟨4, _⟩ => ⟨S4096x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S4096x512_S512x256_S4096x256_1_0_0_1_n_n_wf : DotDims.WF S4096x512 S512x256 S4096x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x512.size a < S50000x512.size a
  hwx0_0 : ∀ i : grid0.Coords, EltTy.bits .f32 = 32 ∨ (Rect.unit (s := S50000x512) (fun a => cc0_transform_0 i a * S4096x512.size a) (fun a => (Pipeline.Clip.of (cc0_transform_0 i a) (S4096x512.size a) (S50000x512.size a)).extent (S4096x512.size a)) fun a => Pipeline.Clip.inb (Pipeline.Clip.ok_of (hstart0_0 i a))).WholeWords (EltTy.packing .f32)
  hwxs0_0 : ∀ i : grid0.Coords, EltTy.bits .f32 = 32 ∨ (Rect.unit (s := S4096x512) (fun _ => 0) (fun a => (Pipeline.Clip.of (cc0_transform_0 i a) (S4096x512.size a) (S50000x512.size a)).extent (S4096x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x256.size a < S50000x256.size a
  hwx0_2 : ∀ i : grid0.Coords, EltTy.bits .f32 = 32 ∨ (Rect.unit (s := S50000x256) (fun a => cc0_transform_2 i a * S4096x256.size a) (fun a => (Pipeline.Clip.of (cc0_transform_2 i a) (S4096x256.size a) (S50000x256.size a)).extent (S4096x256.size a)) fun a => Pipeline.Clip.inb (Pipeline.Clip.ok_of (hstart0_2 i a))).WholeWords (EltTy.packing .f32)
  hwxs0_2 : ∀ i : grid0.Coords, EltTy.bits .f32 = 32 ∨ (Rect.unit (s := S4096x256) (fun _ => 0) (fun a => (Pipeline.Clip.of (cc0_transform_2 i a) (S4096x256.size a) (S50000x256.size a)).extent (S4096x256.size a)) fun a => (Nat.zero_add _).trans_le (Pipeline.Clip.extent_le (Pipeline.Clip.ok_of (hstart0_2 i a)))).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpecClip (Memref.whole main_arg0) S4096x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S4096x256.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S800000x2 : Shape := ⟨2, ![800000, 2]⟩
abbrev S800000 : Shape := ⟨1, ![800000]⟩
abbrev S512x256 : Shape := ⟨2, ![512, 256]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩

abbrev nBuf : Space → Nat
  | .hbm => 25
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000x2, .i32⟩
  | .hbm, ⟨2, _⟩ => ⟨S800000, .f32⟩
  | .hbm, ⟨3, _⟩ => ⟨S512x256, .f32⟩
  | .hbm, ⟨4, _⟩ => ⟨S50000x256, .f32⟩
  | .hbm, ⟨5, _⟩ => ⟨S800000x1, .i32⟩
  | .hbm, ⟨6, _⟩ => ⟨S800000, .i32⟩
  | .hbm, ⟨7, _⟩ => ⟨S800000x1, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.BitsBody.lean ====
/-
  The body of the matmul kernel at one grid point, as a separation-logic triple, at any float instance.

  The body reads the whole row block `x` (4096 × 512) and the whole weight matrix `w` (512 × 256) from their
  staging buffers, forms their product through the matrix unit into a zero accumulator, and overwrites the whole
  result staging buffer (4096 × 256) with it. Nothing else is touched: the two inputs' buffers are handed back as
  they were found, the result's buffer ends holding `prod x w` whatever it held before.
-/
import proofs.«407830_j78692390797706_3_alg».proof.Proof.Gen.Kernel.Skeleton
import proofs.«407830_j78692390797706_3_alg».proof.Proof.Gen.Kernel.Frame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangles the body reads and writes through. -/
abbrev rX : Rect S4096x512 := Rect.unit (s := S4096x512) ![0, 0] S4096x512.size inb_S4096x512_S4096x512_0_0
abbrev rW : Rect S512x256 := Rect.unit (s := S512x256) ![0, 0] S512x256.size inb_S512x256_S512x256_0_0
abbrev rO : Rect S4096x256 := Rect.unit (s := S4096x256) ![0, 0] S4096x256.size inb_S4096x256_S4096x256_0_0

/-- The product block: the matrix unit's product of the row block and the weights into a zero accumulator. -/
def prod (x : Vec F S4096x512 .f32) (w : Vec F S512x256 .f32) : Vec F S4096x256 .f32 := k0_pay1 x w

/-- What the result buffer holds after the body's one store, as the list of its stores read back. -/
def stored (x : Vec F S4096x512 .f32) (w : Vec F S512x256 .f32) : Vec F S4096x256 .f32 :=
  View.canon [⟨rO, k0_pay1 (View.ld x rX) (View.ld w rW)⟩]

/-- The one store covers the whole result buffer. -/
theorem stored_cover (p0 : Vec F S4096x256 .f32) (y : S4096x256.Idx) :
    ∃ pc ∈ ([⟨rO, p0⟩] : List (View.Piece (Elt F) S4096x256 .f32)), y ∈ pc.1.set :=
  View.cover_of_tiled [⟨rO, p0⟩] S4096x256.size (by rfl) y

theorem zero2 : (![0, 0] : Fin 2 → Nat) = fun _ => 0 := funext fun a => by fin_cases a <;> rfl

/-- A whole-buffer load is the buffer's contents and a whole-buffer store its payload: the stored block is the product
    of the two blocks as found. -/
theorem stored_eq (x : Vec F S4096x512 .f32) (w : Vec F S512x256 .f32) : stored x w = prod x w := by
  unfold stored prod
  rw [View.canon_unit_zero zero2]
  simp only [View.ld_unit_zero (S := S4096x512) zero2, View.ld_unit_zero (S := S512x256) zero2]

set_option maxHeartbeats 1000000 in
/-- The body on whole staging memrefs: the row block's and the weights' buffers at contents `x` and `w`, the result's at
    anything; it runs to its continuation with the first two unchanged and the result's buffer at `prod x w`. -/
theorem sound_kernel (c : Dev nD) (E : Set ℕ) (i : grid0.Coords)
    (arg1 : Memref sig .tc .vmem S4096x512 .f32) (harg1 : arg1.IsWhole)
    (arg2 : Memref sig .tc .vmem S512x256 .f32) (harg2 : arg2.IsWhole)
    (arg3 : Memref sig .tc .vmem S4096x256 .f32) (harg3 : arg3.IsWhole)
    (x : Vec F S4096x512 .f32) (w : Vec F S512x256 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prod x w)) -∗ K ⟨⟩))
      ⊢ wp frame (wpE (defs₀ (F := F)) Variants.none c none) E (cc0__matmul_kernel i arg1 harg1 arg2 harg2 arg3 harg3) K := by
  rw [← stored_eq]
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

end Cert.Kernel.Hand

end
-- ==== Proof.BitsFrame.lean ====
/-
  The frame of the matmul kernel's program read at any float instance, without naming what the product block holds.

  The row-block window and the result window are cut at the array's end (50000 rows in blocks of 4096: the thirteenth
  block keeps 848 rows), so after a fetch the row block's staging buffer holds the array's rows on its leading part and
  words nothing names on the rest. What the matrix unit makes of those rows is not needed for the frame: the result
  window is handed to the body at any contents and taken back at any contents, and only the two input arrays and the
  buffers no window stages are followed. The host lines after the region write only their own result buffers.
-/
import proofs.«407830_j78692390797706_3_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not follow: the result's. -/
abbrev dropped : Fin cfg0.W → Bool := fun | 0 => false | 1 => false | 2 => true | ⟨_ + 3, h⟩ => absurd h (Nat.not_lt.2 (Nat.le_add_left _ _))

/-- The proof data: the arrays as the region finds them; after the body the row block's buffer holds the block's rows
    inside the array (filled out with a zero word where nothing is stated), the weights' buffer the weights; the result's
    is not named. -/
def fdats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) :
    (fdats m 0 c).after 0 t = win0_0.fill (grid0.coords t) (fun _ => Scalar.ofBits .f32 0#32) (iblk m c 0 t) := by
  dsimp only [fdats]
theorem fafter_1 (c : Dev nD) (t : Fin cfg0.N) : (fdats m 0 c).after 1 t = iblk m c 1 t := by dsimp only [fdats]

/-- The row block is fetched at every point: its buffer holds the block's rows inside the array on its leading part and
    what the overwrite left, `d`, elsewhere. -/
theorem fbefore_0 (c : Dev nD) (t : Fin cfg0.N) (d) :
    (fdats m 0 c).before 0 t d = win0_0.fill (grid0.coords t) d (iblk m c 0 t) := by
  unfold Dat.before; rw [if_pos (fetch0_0 t)]; rfl

/-- The weights are fetched once and stay: their buffer holds the whole matrix at every point. -/
theorem fbefore_1 (c : Dev nD) (t : Fin cfg0.N) (d) : (fdats m 0 c).before 1 t d = iblk m c 1 t :=
  before0_1_of m (fdats m 0 c) (fA_eq m c 1) (fafter_1 m c) t d

/-- What the body is called with at point `t`, the windows one by one, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ X, owns (c : Thread nD τ) (st0_2 t) fullShare X))

/-- and what it returns: the row block's buffer stated on its leading part, the weights' whole, the result's at anything. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare
        (win0_0.fill (grid0.coords t) d (win0_0.cut (grid0.coords t) ((fdats m 0 c).after 0 t))))
    ∗ owns (c : Thread nD τ) (st0_1 t) fullShare ((fdats m 0 c).after 1 t)
    ∗ (∃ X, owns (c : Thread nD τ) (st0_2 t) fullShare X))

theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore_0, fbefore_1]
  rw [show (fdats m 0 c).Φ t.succ = (fdats m 0 c).Φ t.castSucc from rfl,
    show (fdats m 0 c).owesAt () t.succ = (fdats m 0 c).owesAt () t.castSucc from rfl,
    fafter_0, fafter_1, win0_0.cut_fill]
  iintro ⟨HΦ, Ho, ⟨%d0, H0⟩, ⟨%d1, H1⟩, ⟨%X2, H2⟩⟩
  iapply (sound_kernel c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists _; iexact H2

/-- The library's body obligation at every point, the result window dropped. -/
theorem fbody_obligation (c : Dev nD) :
    BodyObligationLoose (fdats (F := F) m 0 c) (defs₀ (F := F)) Variants.none () Set.univ dropped := fun t => by
  rw [bigSep_W0, bigSep_W0]
  exact fsound_body m c t

/-- The buffers the host lines after the region write: each line's own result. -/
def tailWrites : Finset (Ref sig .tc) :=
  {main_v1, main_v2, main_v3, main_v4, main_c, main_v5, main_v6, main_c_0, main_v7, main_v8, main_v9, main_v10, main_v11,
    main_v12, main_v13, main_v14, main_cst, main_v15, main_v16, main_v17}

theorem tail_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl
  all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of @main terminates; the two staged input arrays end at their entry contents, and every
    buffer that is neither an array of the pipeline nor written by the later lines at what it held at entry. -/
theorem frun_main : θ_run defs (onTc (τ := τ) (main (F := F))) (s₀ m ρ)
    (Pipeline.RDat.FramePostR cfg0 (fun c => (fdats m 0 c).toRForget dropped) tailWrites (fun c b => V0 m c (Proc.devRef .tc b))) :=
  Pipeline.RDat.θ_run_frame_around_T cfgs (0 : Fin 1) launch0 defs₀ Variants.none (fun c => (fdats m 0 c).toRForget dropped) tailWrites m ρ main
    (hbody := fun c => (fbody_obligation m c).toRForget) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl)

/-- What the run's post says of the four argument arrays: the two staged ones by the inputs' clause, the other two by
    the clause for buffers nothing writes. -/
theorem args_of_post (r : PUnit × MemSt nD τ sig (Elt F))
    (h : Pipeline.RDat.FramePostR cfg0 (fun c => (fdats m 0 c).toRForget dropped) tailWrites (fun c b => V0 m c (Proc.devRef .tc b)) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePostR.arr_in h c 0 rfl).trans ((fA_eq m c 0).trans (V_main_arg0 m c)),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    (Pipeline.RDat.FramePostR.arr_in h c 1 rfl).trans ((fA_eq m c 1).trans (V_main_arg3 m c))⟩

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_of_post m r h c) (frun_main m ρ)

end Cert.Kernel.Hand

end
-- ==== Proof.IdealBody.lean ====
/-
  The body of the matmul kernel at one grid point, as a separation-logic triple, at any float instance.

  The body reads the whole row block `x` (4096 × 512) and the whole weight matrix `w` (512 × 256) from their
  staging buffers, forms their product through the matrix unit into a zero accumulator, and overwrites the whole
  result staging buffer (4096 × 256) with it. Nothing else is touched: the two inputs' buffers are handed back as
  they were found, the result's buffer ends holding `prod x w` whatever it held before.
-/
import proofs.«407830_j78692390797706_3_alg».proof.Proof.Gen.KernelIdeal.Skeleton
import proofs.«407830_j78692390797706_3_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangles the body reads and writes through. -/
abbrev rX : Rect S4096x512 := Rect.unit (s := S4096x512) ![0, 0] S4096x512.size inb_S4096x512_S4096x512_0_0
abbrev rW : Rect S512x256 := Rect.unit (s := S512x256) ![0, 0] S512x256.size inb_S512x256_S512x256_0_0
abbrev rO : Rect S4096x256 := Rect.unit (s := S4096x256) ![0, 0] S4096x256.size inb_S4096x256_S4096x256_0_0

/-- The product block: the matrix unit's product of the row block and the weights into a zero accumulator. -/
def prod (x : Vec F S4096x512 .f32) (w : Vec F S512x256 .f32) : Vec F S4096x256 .f32 := k0_pay1 x w

/-- What the result buffer holds after the body's one store, as the list of its stores read back. -/
def stored (x : Vec F S4096x512 .f32) (w : Vec F S512x256 .f32) : Vec F S4096x256 .f32 :=
  View.canon [⟨rO, k0_pay1 (View.ld x rX) (View.ld w rW)⟩]

/-- The one store covers the whole result buffer. -/
theorem stored_cover (p0 : Vec F S4096x256 .f32) (y : S4096x256.Idx) :
    ∃ pc ∈ ([⟨rO, p0⟩] : List (View.Piece (Elt F) S4096x256 .f32)), y ∈ pc.1.set :=
  View.cover_of_tiled [⟨rO, p0⟩] S4096x256.size (by rfl) y

theorem zero2 : (![0, 0] : Fin 2 → Nat) = fun _ => 0 := funext fun a => by fin_cases a <;> rfl

/-- A whole-buffer load is the buffer's contents and a whole-buffer store its payload: the stored block is the product
    of the two blocks as found. -/
theorem stored_eq (x : Vec F S4096x512 .f32) (w : Vec F S512x256 .f32) : stored x w = prod x w := by
  unfold stored prod
  rw [View.canon_unit_zero zero2]
  simp only [View.ld_unit_zero (S := S4096x512) zero2, View.ld_unit_zero (S := S512x256) zero2]

set_option maxHeartbeats 1000000 in
/-- The body on whole staging memrefs: the row block's and the weights' buffers at contents `x` and `w`, the result's at
    anything; it runs to its continuation with the first two unchanged and the result's buffer at `prod x w`. -/
theorem sound_kernel (c : Dev nD) (E : Set ℕ) (i : grid0.Coords)
    (arg1 : Memref sig .tc .vmem S4096x512 .f32) (harg1 : arg1.IsWhole)
    (arg2 : Memref sig .tc .vmem S512x256 .f32) (harg2 : arg2.IsWhole)
    (arg3 : Memref sig .tc .vmem S4096x256 .f32) (harg3 : arg3.IsWhole)
    (x : Vec F S4096x512 .f32) (w : Vec F S512x256 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prod x w)) -∗ K ⟨⟩))
      ⊢ wp frame (wpE (defs₀ (F := F)) Variants.none c none) E (cc0__matmul_kernel i arg1 harg1 arg2 harg2 arg3 harg3) K := by
  rw [← stored_eq]
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

end Cert.KernelIdeal.Hand

end
-- ==== Proof.IdealMat.lean ====
/-
  The product block read at an index, at the ideal values.

  At the ideal instance a change of float format is the identity and the matrix unit's product into a zero accumulator is the
  textbook one: entry (r, c) of the block is the sum over k < 512 of x(r, k) · w(k, c) on the extended reals. So an entry
  depends on row r of the row block only.
-/
import proofs.«407830_j78692390797706_3_alg».proof.Proof.IdealBody
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem

/-- The contraction's operand indices at result index `i`, axis by axis: the left operand is read at (row of `i`, k), -/
theorem lhs_prod_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs_prod_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
/-- the right operand at (k, column of `i`). -/
theorem rhs_prod_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs_prod_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- Entry (row of `i`, k) of the row block. -/
abbrev rowAt (i : S4096x256.Idx) (k : Fin 512) : S4096x512.Idx := fun a => match a with
  | ⟨0, _⟩ => ⟨(i 0).val, (i 0).isLt⟩
  | ⟨1, _⟩ => ⟨k.val, k.isLt⟩
/-- Entry (k, column of `i`) of the weights. -/
abbrev colAt (i : S4096x256.Idx) (k : Fin 512) : S512x256.Idx := fun a => match a with
  | ⟨0, _⟩ => ⟨k.val, k.isLt⟩
  | ⟨1, _⟩ => ⟨(i 1).val, (i 1).isLt⟩

/-- The product block at an index: the sum over the contracted axis of row entry times column entry. -/
theorem prod_apply (x : Vec Ideal S4096x512 .f32) (w : Vec Ideal S512x256 .f32) (i : S4096x256.Idx) :
    prod (F := Ideal) x w i = ∑ k : Fin 512, x (rowAt i k) * w (colAt i k) := by
  unfold prod k0_pay1
  simp only [matmul]
  rw [Ideal.matmul_constant_zero_apply, ← Equiv.sum_comp (ValueIdx.contrEquiv1 dot_S4096x512_S512x256_S4096x256_1_0_0_1_n_n 512 rfl rfl).symm]
  refine Finset.sum_congr rfl fun k _ => ?_
  have hk := ValueIdx.contrEquiv1_symm_val dot_S4096x512_S512x256_S4096x256_1_0_0_1_n_n 512 rfl rfl k
  have el : dot_S4096x512_S512x256_S4096x256_1_0_0_1_n_n.lhsIdx i ((ValueIdx.contrEquiv1 dot_S4096x512_S512x256_S4096x256_1_0_0_1_n_n 512 rfl rfl).symm k) = rowAt i k := funext fun a => Fin.ext (by
    match a with
    | ⟨0, _⟩ => exact lhs_prod_0 _ _
    | ⟨1, _⟩ => exact (lhs_prod_1 _ _).trans hk)
  have er : dot_S4096x512_S512x256_S4096x256_1_0_0_1_n_n.rhsIdx i ((ValueIdx.contrEquiv1 dot_S4096x512_S512x256_S4096x256_1_0_0_1_n_n 512 rfl rfl).symm k) = colAt i k := funext fun a => Fin.ext (by
    match a with
    | ⟨0, _⟩ => exact (rhs_prod_0 _ _).trans hk
    | ⟨1, _⟩ => exact rhs_prod_1 _ _)
  rw [el, er]
  rfl

/-- Two row blocks that agree on row `r` give products that agree on row `r`. -/
theorem prod_row_congr (x x' : Vec Ideal S4096x512 .f32) (w : Vec Ideal S512x256 .f32) (i : S4096x256.Idx)
    (h : ∀ k : Fin 512, x (rowAt i k) = x' (rowAt i k)) : prod (F := Ideal) x w i = prod (F := Ideal) x' w i := by
  rw [prod_apply, prod_apply]
  exact Finset.sum_congr rfl fun k _ => by rw [h k]

end Cert.KernelIdeal.Hand

end
-- ==== Proof.IdealRun.lean ====
/-
  The run of the idealized matmul program with every array named, and what the product array holds after it.

  The grid has thirteen points; point t stages rows 4096·t … of `x` (all 4096 of them for t < 12, the last 848 for t = 12,
  where the block overhangs the array's 50000 rows), the whole of `w`, and writes back the same rows of the product. A
  fetched row block holds the array's rows on the part inside the array and unnamed words past it; since an entry of the
  product depends on its own row of the row block only, the rows of the product that are written back do not depend on
  those words. So the product array ends holding the whole-array product: entry (r, c) is the sum over k < 512 of
  x(r, k) · w(k, c).
-/
import proofs.«407830_j78692390797706_3_alg».proof.Proof.IdealMat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule's arithmetic, decided over the thirteen points -/

/-- At point `t`: the row-block window and the result window are cut alike on the row axis and not at all on the other;
    the row block index is `t` and every other block index zero; the rows moved are those from `4096·t` up to the array's
    end or the block's, whichever comes first. -/
theorem sched : ∀ t : Fin grid0.N,
    win0_0.xsize (grid0.coords t) 0 = win0_2.xsize (grid0.coords t) 0
    ∧ win0_0.xsize (grid0.coords t) 1 = 512 ∧ win0_2.xsize (grid0.coords t) 1 = 256
    ∧ win0_0.index t 0 = t.val ∧ win0_0.index t 1 = 0
    ∧ win0_2.index t 0 = t.val ∧ win0_2.index t 1 = 0
    ∧ win0_1.index t 0 = 0 ∧ win0_1.index t 1 = 0
    ∧ t.val * 4096 + win0_2.xsize (grid0.coords t) 0 = min 50000 ((t.val + 1) * 4096) := by
  decide +kernel

/-! ## The proof data -/

/-- A filler for the rows of a staging buffer nothing is stated of. -/
abbrev zfill : S4096x512.Idx → Elt Ideal .f32 := fun _ => Scalar.ofBits (F := Ideal) .f32 0#32

/-- What the row block's staging buffer holds after the fetch at point `t`: the array's rows on the part inside the
    array, `d` past it. -/
def xfound (c : Dev nD) (t : Fin cfg0.N) (d : S4096x512.Idx → Elt Ideal .f32) : Vec Ideal S4096x512 .f32 :=
  win0_0.fill (grid0.coords t) d (iblk m c 0 t)

/-- The proof data: the arrays as the region finds them; after the body at point `t` the row block's buffer at its rows
    (zero-filled past the array), the weights' buffer at the weights, the result's at their product. -/
def dats (_ : Fin 1) (c : Dev nD) : Dat τ (Elt Ideal) Unit ℕ (UR sig nD τ) ℕ cfg0 c where
  A w := V m c (Pipeline.arrRef spec0 w)
  after w t := match w with
    | ⟨0, _⟩ => xfound m c t zfill
    | ⟨1, _⟩ => iblk m c 1 t
    | ⟨2, _⟩ => prod (F := Ideal) (xfound m c t zfill) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfound m c t zfill := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = prod (F := Ideal) (xfound m c t zfill) (iblk m c 1 t) := by dsimp only [dats]

/-- The row block is fetched at every point. -/
theorem before_0 (c : Dev nD) (t : Fin cfg0.N) (d) : (dats m 0 c).before 0 t d = xfound m c t d := by
  unfold Dat.before; rw [if_pos (fetch0_0 t)]; rfl

/-- The weights are fetched once and stay. -/
theorem before_1 (c : Dev nD) (t : Fin cfg0.N) (d) : (dats m 0 c).before 1 t d = iblk m c 1 t :=
  before0_1_of m (dats m 0 c) (A_eq m c 1) (after_1 m c) t d

/-! ## The written-back rows do not depend on the words past the array -/

/-- An entry of the fetched row block on a row that is written back is the array's, whatever lies past the array. -/
theorem xfound_row (c : Dev nD) (t : Fin cfg0.N) (d d' : S4096x512.Idx → Elt Ideal .f32)
    (y : (win0_2.xblock (grid0.coords t)).Idx) (k : Fin 512) :
    xfound m c t d (rowAt (win0_2.xinj (grid0.coords t) y) k) = xfound m c t d' (rowAt (win0_2.xinj (grid0.coords t) y) k) := by
  have hm : win0_0.moved (grid0.coords t) (rowAt (win0_2.xinj (grid0.coords t) y) k) = true :=
    (win0_0.moved_iff _ _).mpr fun a => by
      obtain ⟨h0, h1, -⟩ := sched t
      match a with
      | ⟨0, _⟩ => show (y 0).val < win0_0.xsize (grid0.coords t) 0; rw [h0]; exact (y 0).isLt
      | ⟨1, _⟩ => show k.val < win0_0.xsize (grid0.coords t) 1; rw [h1]; exact k.isLt
  unfold xfound Window.fill
  rw [dif_pos hm, dif_pos hm]

/-- So the part of the product block that is written back is the same for every filler. -/
theorem cut_prod (c : Dev nD) (t : Fin cfg0.N) (d d' : S4096x512.Idx → Elt Ideal .f32) (w : Vec Ideal S512x256 .f32) :
    win0_2.cut (grid0.coords t) (prod (F := Ideal) (xfound m c t d) w)
      = win0_2.cut (grid0.coords t) (prod (F := Ideal) (xfound m c t d') w) :=
  funext fun y => prod_row_congr _ _ w _ fun k => xfound_row m c t d d' y k

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (xfound m c t d0) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    have e : win0_0.fill (grid0.coords t) d0 (win0_0.cut (grid0.coords t) (xfound m c t zfill)) = xfound m c t d0 := by
      unfold xfound; rw [win0_0.cut_fill]
    rw [e]; iexact H0
  isplitl [H1]; · iexact H1
  iexists prod (F := Ideal) (xfound m c t d0) (iblk m c 1 t)
  rw [win0_2.fill_congr_cut _ (cut_prod m c t d0 zfill (iblk m c 1 t))]
  iexact H2

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.IdealValue.lean ====
/-
  What the product array holds after the run: the whole-array product.

  Point t writes back rows 4096·t … of the product block; a row r of the array lies in the block of point r / 4096, at
  row r − 4096·(r / 4096) of it, and the block's entry there is the sum over k of x(r, k) · w(k, c): the fetched row block's
  row is the array's row r, the weights' block is the whole matrix. The thirteen blocks, the last cut at row 50000, cover
  the array.
-/
import proofs.«407830_j78692390797706_3_alg».proof.Proof.IdealRun

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-- Entry (row of `i`, k) of `x`, and entry (k, column of `i`) of `w`. -/
abbrev arow (i : S50000x256.Idx) (k : Fin 512) : S50000x512.Idx := fun a => match a with
  | ⟨0, _⟩ => ⟨(i 0).val, (i 0).isLt⟩
  | ⟨1, _⟩ => ⟨k.val, k.isLt⟩
abbrev acol (i : S50000x256.Idx) (k : Fin 512) : S512x256.Idx := fun a => match a with
  | ⟨0, _⟩ => ⟨k.val, k.isLt⟩
  | ⟨1, _⟩ => ⟨(i 1).val, (i 1).isLt⟩

/-- The product of the whole arrays on the extended reals. -/
def matProd (x : Vec Ideal S50000x512 .f32) (w : Vec Ideal S512x256 .f32) : Vec Ideal S50000x256 .f32 :=
  fun i => ∑ k : Fin 512, x (arow i k) * w (acol i k)

/-- The two argument arrays as the region finds them. -/
abbrev xarr (c : Dev nD) : Vec Ideal S50000x512 .f32 := V m c main_arg0
abbrev warr (c : Dev nD) : Vec Ideal S512x256 .f32 := V m c main_arg3

/-- The row block at point `t` is rows `4096·t …` of `x`. -/
theorem xblk_apply (c : Dev nD) (t : Fin cfg0.N) (x : (win0_0.xblock (grid0.coords t)).Idx) (q : S50000x512.Idx)
    (h0 : (q 0).val = t.val * 4096 + (x 0).val) (h1 : (q 1).val = (x 1).val) :
    iblk m c 0 t x = xarr m c q := by
  obtain ⟨-, -, -, hi0, hi1, -⟩ := sched t
  unfold iblk
  rw [View.read_apply]
  show V m c main_arg0 _ = V m c main_arg0 q
  congr 1
  funext a
  apply Fin.ext
  match a with
  | ⟨0, _⟩ => show win0_0.index t 0 * 4096 + 1 * (x 0).val = (q 0).val; rw [hi0, h0]; omega
  | ⟨1, _⟩ => show win0_0.index t 1 * 512 + 1 * (x 1).val = (q 1).val; rw [hi1, h1]; omega

/-- The weights' block at every point is the whole of `w`. -/
theorem wblk_apply (c : Dev nD) (t : Fin cfg0.N) (x : (win0_1.xblock (grid0.coords t)).Idx) (q : S512x256.Idx)
    (h0 : (q 0).val = (x 0).val) (h1 : (q 1).val = (x 1).val) :
    iblk m c 1 t x = warr m c q := by
  obtain ⟨-, -, -, -, -, -, -, hi0, hi1, -⟩ := sched t
  unfold iblk
  rw [View.read_apply]
  show V m c main_arg3 _ = V m c main_arg3 q
  congr 1
  funext a
  apply Fin.ext
  match a with
  | ⟨0, _⟩ => show win0_1.index t 0 * 512 + 1 * (x 0).val = (q 0).val; rw [hi0, h0]; omega
  | ⟨1, _⟩ => show win0_1.index t 1 * 256 + 1 * (x 1).val = (q 1).val; rw [hi1, h1]; omega

/-- What point `t` writes back is its block of the whole-array product. -/
theorem flushed_eq (c : Dev nD) (t : Fin cfg0.N) (hf : (cfg0.win 2).flush t = true) :
    (dats m 0 c).flushed 2 t = ((cfg0.win 2).blk t).view.read (Elt Ideal) (matProd (xarr m c) (warr m c)) := by
  obtain ⟨h0, h1, h2, -, -, hi0, hi1, -, -, -⟩ := sched t
  funext y
  show (dats m 0 c).after 2 t (win0_2.xinj (grid0.coords t) y) = _
  rw [after_2, prod_apply, View.read_apply]
  show _ = matProd (xarr m c) (warr m c) ((win0_2.rect t).emb y)
  unfold matProd
  refine Finset.sum_congr rfl fun k _ => ?_
  have hm : win0_0.moved (grid0.coords t) (rowAt (win0_2.xinj (grid0.coords t) y) k) = true :=
    (win0_0.moved_iff _ _).mpr fun a => by
      match a with
      | ⟨0, _⟩ => show (y 0).val < win0_0.xsize (grid0.coords t) 0; rw [h0]; exact (y 0).isLt
      | ⟨1, _⟩ => show k.val < win0_0.xsize (grid0.coords t) 1; rw [h1]; exact k.isLt
  have e0 := win0_2.rect_emb_val t y 0
  have e1 := win0_2.rect_emb_val t y 1
  rw [hi0] at e0; rw [hi1] at e1
  congr 1
  · unfold xfound Window.fill
    rw [dif_pos hm]
    refine xblk_apply m c t _ _ ?_ ?_
    · show ((win0_2.rect t).emb y 0).val = t.val * 4096 + (y 0).val
      rw [e0]; rfl
    · rfl
  · refine wblk_apply m c t _ _ ?_ ?_
    · rfl
    · show ((win0_2.rect t).emb y 1).val = (y 1).val
      rw [e1]; show 0 * 256 + (y 1).val = (y 1).val; omega

/-- An index of the array lies in the block of point `t` iff its row is among the rows that point moves. -/
theorem mem_blk (t : Fin cfg0.N) (i : S50000x256.Idx) :
    i ∈ ((cfg0.win 2).blk t).view.set ↔ t.val * 4096 ≤ (i 0).val ∧ (i 0).val < min 50000 ((t.val + 1) * 4096) := by
  obtain ⟨-, -, h2, -, -, hx0, hx1, -, -, hrows⟩ := sched t
  have hi1 : (i 1).val < 256 := (i 1).isLt
  show i ∈ ((View.whole main_v0).slice (win0_2.rect t)).set ↔ _
  rw [View.set_slice_whole, Rect.mem_set_unit]
  constructor
  · intro h
    have h0 := h 0
    change win0_2.index t 0 * 4096 ≤ (i 0 : Nat) ∧ (i 0 : Nat) < win0_2.index t 0 * 4096 + win0_2.xsize (grid0.coords t) 0 at h0
    rw [hx0, hrows] at h0
    exact h0
  · intro h a
    match a with
    | ⟨0, _⟩ =>
      show win0_2.index t 0 * 4096 ≤ (i 0 : Nat) ∧ (i 0 : Nat) < win0_2.index t 0 * 4096 + win0_2.xsize (grid0.coords t) 0
      rw [hx0, hrows]; exact h
    | ⟨1, _⟩ =>
      show win0_2.index t 1 * 256 ≤ (i 1 : Nat) ∧ (i 1 : Nat) < win0_2.index t 1 * 256 + win0_2.xsize (grid0.coords t) 1
      rw [hx1, h2]; omega

/-- Every row of the array lies in the block of the point its row index divided by 4096 names. -/
theorem covered (i : S50000x256.Idx) :
    ∃ t : Fin cfg0.N, (cfg0.win 2).flush t = true ∧ i ∈ ((cfg0.win 2).blk t).view.set := by
  have hi0 : (i 0).val < 50000 := (i 0).isLt
  have hN : cfg0.N = 13 := N_0
  refine ⟨⟨(i 0).val / 4096, by rw [hN]; omega⟩, flush0_2 _, ?_⟩
  rw [mem_blk]
  show (i 0).val / 4096 * 4096 ≤ (i 0).val ∧ (i 0).val < min 50000 (((i 0).val / 4096 + 1) * 4096)
  omega

/-- The product array after the run is the whole-array product. -/
theorem final_o (c : Dev nD) : (dats m 0 c).arrAt 2 cfg0.N = matProd (xarr m c) (warr m c) :=
  (dats m 0 c).arrAt_eq_of_cover 2 (matProd (xarr m c) (warr m c)) (flushed_eq m c) covered

end Cert.KernelIdeal.Hand

end
-- ==== Proof.Tail.lean ====
/-
  The two idealized programs end with the same host lines: the column ids gather rows of the product, each gathered row is
  weighted by its edge's weight, and the weighted rows are added into a zero array at the row ids. Both results are that one
  function of the product array, the edge index and the edge weights; the kernel's product array is the whole-array product
  of `x` and `w`, which is what the reference's `dot_general` is on the extended reals.
-/
import proofs.«407830_j78692390797706_3_alg».proof.Proof.IdealValue
import proofs.«407830_j78692390797706_3_alg».proof.Proof.Gen.ReferenceIdeal.Run
import proofs.«407830_j78692390797706_3_alg».proof.Proof.Gen.ReferenceIdeal.Read
import Idealize.ShloMosaic.Lib.StableHlo.Run

set_option maxRecDepth 16384

noncomputable section

namespace Cert.Tail

open Idealize.ShloMosaic Idealize.ShloMosaic.TcCoe Idealize.SL.Sem Idealize.ShloMosaic.StableHlo

/-- The lines after the product, as one function of the product array `h`, the edge index `e` and the edge weights `ew`:
    rows of `h` gathered at the (wrapped) column ids, each times its edge's weight, added into zeros at the row ids. -/
def tail (h : (⟨Cert.ReferenceIdeal.S50000x256, .f32⟩ : BufTy).Contents (Elt Ideal))
    (e : (⟨Cert.ReferenceIdeal.S800000x2, .i32⟩ : BufTy).Contents (Elt Ideal))
    (ew : (⟨Cert.ReferenceIdeal.S800000, .f32⟩ : BufTy).Contents (Elt Ideal)) :
    (⟨Cert.ReferenceIdeal.S50000x256, .f32⟩ : BufTy).Contents (Elt Ideal) :=
  Host.scatterAdd (F := Ideal) (φ := .f32) Cert.ReferenceIdeal.scatter_S50000x256_S800000x1_S800000x256_1_0_0_1
    (Cert.ReferenceIdeal.Read.val_main_v15 (F := Ideal)) (Cert.ReferenceIdeal.Read.val_main_v16 (F := Ideal) e)
    (mulf (F := Ideal) (φ := .f32) (Host.gather (α := Ideal .f32) Cert.ReferenceIdeal.gather_S50000x256_S800000x1_S800000x256_1_0_n_n_0_1_1256 h
        (Cert.ReferenceIdeal.Read.val_main_v10 (F := Ideal) e))
      (Cert.ReferenceIdeal.Read.val_main_v13 (F := Ideal) ew))

/-- The reference's result is the tail of its `dot_general`. -/
theorem ref_eq (x0 : (⟨Cert.ReferenceIdeal.S50000x512, .f32⟩ : BufTy).Contents (Elt Ideal))
    (x1 : (⟨Cert.ReferenceIdeal.S800000x2, .i32⟩ : BufTy).Contents (Elt Ideal))
    (x2 : (⟨Cert.ReferenceIdeal.S800000, .f32⟩ : BufTy).Contents (Elt Ideal))
    (x3 : (⟨Cert.ReferenceIdeal.S512x256, .f32⟩ : BufTy).Contents (Elt Ideal)) :
    Cert.ReferenceIdeal.Read.val_main_v17 (F := Ideal) x0 x1 x2 x3
      = tail (Cert.ReferenceIdeal.Read.val_main_v0 (F := Ideal) x0 x3) x1 x2 := rfl

/-- The reference's `dot_general` on the extended reals is the whole-array product. -/
theorem dot_eq (x0 : (⟨Cert.ReferenceIdeal.S50000x512, .f32⟩ : BufTy).Contents (Elt Ideal))
    (x3 : (⟨Cert.ReferenceIdeal.S512x256, .f32⟩ : BufTy).Contents (Elt Ideal)) :
    Cert.ReferenceIdeal.Read.val_main_v0 (F := Ideal) x0 x3 = Cert.KernelIdeal.Hand.matProd x0 x3 := by
  funext i
  rw [Cert.ReferenceIdeal.Read.val_main_v0_apply]
  rfl

section Kernel

open Cert.KernelIdeal Cert.KernelIdeal.Gen Cert.KernelIdeal.Hand

variable (m : (ℓ : Loc nD τ sig) → Buf (Elt Ideal) ℓ) (ρ : Dev nD → PrngReg)

set_option maxHeartbeats 4000000 in
/-- The kernel program's result: the tail of the product array the region leaves. -/
theorem kernel_result (c : Dev nD) :
    Pipeline.afterTail₀ cfgs (dats m) 0 (V0 m) [hostOps1] c main_v17
      = tail (matProd (xarr m c) (warr m c)) (m ((c.tc : Thread nD τ).loc main_arg1)) (m ((c.tc : Thread nD τ).loc main_arg2)) := by
  unfold Pipeline.afterTail₀
  show StableHlo.after hostOps1 _ (Proc.devRef .tc main_v17) = _
  after_results
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2))]
  have e0 : Pipeline.withArrays (cfgs 0).spec c (V0 m c) (fun w => (dats m 0 c).arrAt w (cfgs 0).N) (Proc.devRef .tc main_v0)
      = matProd (xarr m c) (warr m c) :=
    (Pipeline.withArrays_arr spec0 launch0.win.arr_inj c _ _ 2).trans (final_o m c)
  rw [e0]
  rfl

/-- The result array both programs end with, on device `c`. -/
def result (c : Dev nD) : Buf (Elt Ideal) ((c.tc : Thread nD τ).loc main_v17) :=
  tail (matProd (xarr m c) (warr m c)) (m ((c.tc : Thread nD τ).loc main_arg1)) (m ((c.tc : Thread nD τ).loc main_arg2))

/-- What the run's post says of the result array and of the four argument arrays. -/
theorem post_of (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_v17 (Pipeline.mem_restRefs_of main_v17 (by decide) (by decide))).trans (kernel_result m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans (((dats m 0 c).arrAt_in 1 rfl _).trans ((A_eq m c 1).trans (V_main_arg3 m c)))⟩

/-- The idealized kernel program's run: it terminates with the result array at `result` and the arguments as launched. -/
theorem kernel_run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => post_of m r h c) (run_main m ρ)

/-- The reference's result, at the same arguments, is the same array. -/
theorem ref_result (c : Dev nD) :
    Cert.ReferenceIdeal.Read.val_main_v17 (F := Ideal) (m ((c.tc : Thread nD τ).loc main_arg0)) (m ((c.tc : Thread nD τ).loc main_arg1))
        (m ((c.tc : Thread nD τ).loc main_arg2)) (m ((c.tc : Thread nD τ).loc main_arg3))
      = result m c := by
  rw [ref_eq, dot_eq]
  rfl

end Kernel

end Cert.Tail

end
-- ==== Proof.lean ====
/-
  `Cert.Claim`: the edge convolution `segment_sum((x · W)[col] * weight, row)` with the product `x · W` computed by a
  row-blocked matrix-unit kernel, against the same expression with the product a host `dot_general`.

  The kernel computes `x · W` thirteen row blocks of 4096 at a time (the last block keeps the 848 rows inside the array), from
  bf16 readings of the operands into an f32 accumulator; on the extended reals a change of format is the identity and the
  matrix unit's sum is the textbook one, so the product array ends holding entry (r, c) = Σ_k x(r, k) · W(k, c), which is
  what the reference's `dot_general` is. The gather, the weighting and the scatter-add after it are the same host lines in
  both programs, applied to the same arrays. No law of the extended reals beyond reading the two sums at an index is used,
  and the finiteness precondition is not needed.
  The three frames: each program terminates without a fault and leaves its four argument arrays as launched — for the two
  kernel programs from the pipeline's run (at the word-level instance without naming what the product block holds), for the
  reference from its run. The ideal pass rewrote nothing, so `preserves` is `True`.
-/
import proofs.«407830_j78692390797706_3_alg».proof.Defs
import proofs.«407830_j78692390797706_3_alg».proof.Proof.Gen.Kernel
import proofs.«407830_j78692390797706_3_alg».proof.Proof.Gen.KernelIdeal
import proofs.«407830_j78692390797706_3_alg».proof.Proof.Gen.ReferenceIdeal
import proofs.«407830_j78692390797706_3_alg».proof.Proof.Gen.Pre_finite_inputs
import proofs.«407830_j78692390797706_3_alg».proof.Proof.BitsFrame
import proofs.«407830_j78692390797706_3_alg».proof.Proof.Tail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the shared host lines applied to the whole-array product of the
    (agreeing) arguments. -/
theorem algebraic : Cert.algebraic_KernelIdeal_ReferenceIdeal := by
  intro m ρ m' ρ' _ hagree
  refine ⟨fun c => Cert.Tail.result m c, Cert.Tail.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.Tail.ref_result m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
